-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x1024 : Shape := ⟨2, ![1024, 1024]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512, .f32⟩
  | .local _ .vmem, ⟨7, _⟩ => ⟨S512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S8192x4096_S4x2048x4096 : S8192x4096.ShapeCasts S4x2048x4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CaseValues.lean ====
/-
  What the kernel body leaves behind in each of its three control cases, as values.

  A grid point is in one of three cases according to its position k along the reduction axis. At k = 0 the body
  first fills the accumulator with zero and then adds the point's block product to it; at k = 1, 2 it adds the block
  product to what the point before left; at k = 3 it does the same and then stores accumulator plus bias into the
  output block. In every case the accumulator is stored whole, so what it holds afterwards is the last stored value;
  a load that follows a whole store reads that store's value back.
-/
import proofs.«105646_j57690000719893_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]
variable (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole)

theorem hz : (![0, 0] : Fin 2 → Nat) = fun _ => 0 := funext fun a => by fin_cases a <;> rfl
theorem hz1 : (![0] : Fin 1 → Nat) = fun _ => 0 := funext fun a => by fin_cases a; rfl

/-- First point of a reduction run (k = 0): the accumulator ends at the block product added to the zero fill. -/
theorem acc_first (hc0 : cond0_0 i) (hc1 : ¬cond0_1 i) (x0 : Vec F S1024x1024 .f32) (x1 : Vec F S512x1024 .f32) (x2 : Vec F S512x1024 .f32) (x3 : Vec F S512 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S1024x512) hz, View.ld_unit_zero (S := S512) hz1, View.readCov_unit_zero (S := S1024x512) _ hz]

/-- A middle point (k = 1, 2): the accumulator ends at the block product added to what it held. -/
theorem acc_middle (hc0 : ¬cond0_0 i) (hc1 : ¬cond0_1 i) (x0 : Vec F S1024x1024 .f32) (x1 : Vec F S512x1024 .f32) (x2 : Vec F S512x1024 .f32) (x3 : Vec F S512 .f32) (xs0 : Vec F S1024x512 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x512) hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S1024x512) hz, View.ld_unit_zero (S := S512) hz1, View.readCov_unit_zero (S := S1024x512) _ hz]

/-- The last point (k = 3): the accumulator is updated the same way, -/
theorem acc_last (hc0 : ¬cond0_0 i) (hc1 : cond0_1 i) (x0 : Vec F S1024x1024 .f32) (x1 : Vec F S512x1024 .f32) (x2 : Vec F S512x1024 .f32) (x3 : Vec F S512 .f32) (xs0 : Vec F S1024x512 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S1024x512) hz, View.ld_unit_zero (S := S512) hz1, View.readCov_unit_zero (S := S1024x512) _ hz]

/-- and the output block receives the updated accumulator plus the bias block. -/
theorem out_last (hc0 : ¬cond0_0 i) (hc1 : cond0_1 i) (x0 : Vec F S1024x1024 .f32) (x1 : Vec F S512x1024 .f32) (x2 : Vec F S512x1024 .f32) (x3 : Vec F S512 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S1024x512) hz, View.ld_unit_zero (S := S512) hz1, View.readCov_unit_zero (S := S1024x512) _ hz]

end Cert.KernelIdeal.Cases

end
-- ==== Proof.Fold.lean ====
/-
  The accumulator across the grid, as a recursion on the point.

  The 256 grid points are visited in row-major order of (i, j, k), so the reduction coordinate k is the point's
  number modulo 4. The accumulator after point n is defined by recursion on n: at a point with k = 0 it is the
  point's block product added to the zero fill, at any other point the block product added to the accumulator after
  the point before. What the program's run leaves in the accumulator after each point is this recursion (by
  induction on the point), and at a point with k = 3 the output block is that accumulator plus the point's bias
  block.
-/
import proofs.«105646_j57690000719893_1_alg».proof.Proof.CaseValues

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable {F : FTy → Type} [FloatOps F]
variable (m : (ℓ : Loc nD τ sig) → Buf (Elt F) ℓ)

/-- The activation block, the weight block, the mask block and the bias block a point reads. -/
abbrev xblk (c : Dev nD) (t : Fin cfg0.N) : Vec F S1024x1024 .f32 := iblk m c 0 t
abbrev wblk (c : Dev nD) (t : Fin cfg0.N) : Vec F S512x1024 .f32 := iblk m c 1 t
abbrev kblk (c : Dev nD) (t : Fin cfg0.N) : Vec F S512x1024 .f32 := iblk m c 2 t
abbrev bblk (c : Dev nD) (t : Fin cfg0.N) : Vec F S512 .f32 := iblk m c 3 t

/-- The accumulator after point `n`. -/
def acc (c : Dev nD) : (n : ℕ) → n < cfg0.N → Vec F S1024x512 .f32
  | 0, h => k0_pay2 (xblk m c ⟨0, h⟩) (wblk m c ⟨0, h⟩) (kblk m c ⟨0, h⟩) (k0_pay1 (F := F))
  | n + 1, h =>
    if (n + 1) % 4 = 0 then k0_pay2 (xblk m c ⟨n + 1, h⟩) (wblk m c ⟨n + 1, h⟩) (kblk m c ⟨n + 1, h⟩) (k0_pay1 (F := F))
    else k0_pay2 (xblk m c ⟨n + 1, h⟩) (wblk m c ⟨n + 1, h⟩) (kblk m c ⟨n + 1, h⟩) (acc c n (Nat.lt_of_succ_lt h))

theorem acc_succ (c : Dev nD) (n : ℕ) (h : n + 1 < cfg0.N) :
    acc m c (n + 1) h = if (n + 1) % 4 = 0 then k0_pay2 (xblk m c ⟨n + 1, h⟩) (wblk m c ⟨n + 1, h⟩) (kblk m c ⟨n + 1, h⟩) (k0_pay1 (F := F))
      else k0_pay2 (xblk m c ⟨n + 1, h⟩) (wblk m c ⟨n + 1, h⟩) (kblk m c ⟨n + 1, h⟩) (acc m c n (Nat.lt_of_succ_lt h)) := rfl

/-- At the first point of a reduction run the accumulator restarts from zero. -/
theorem acc_restart (c : Dev nD) (n : ℕ) (h : n < cfg0.N) (h0 : n % 4 = 0) :
    acc m c n h = k0_pay2 (xblk m c ⟨n, h⟩) (wblk m c ⟨n, h⟩) (kblk m c ⟨n, h⟩) (k0_pay1 (F := F)) := by
  cases n with
  | zero => rfl
  | succ n => rw [acc_succ, if_pos h0]

/-- At every other point it continues from the point before. -/
theorem acc_continue (c : Dev nD) (n : ℕ) (h : n + 1 < cfg0.N) (h0 : ¬(n + 1) % 4 = 0) :
    acc m c (n + 1) h = k0_pay2 (xblk m c ⟨n + 1, h⟩) (wblk m c ⟨n + 1, h⟩) (kblk m c ⟨n + 1, h⟩) (acc m c n (Nat.lt_of_succ_lt h)) := by
  rw [acc_succ, if_neg h0]

/-- What the run leaves in the accumulator after point `n` is the recursion above. -/
theorem scratch_eq (c : Dev nD) : ∀ (n : ℕ) (h : n < cfg0.N), (outsAt0 m c n h).2 = acc m c n h
  | 0, h => by
    rw [outsAt0_A m c ⟨0, h⟩ rfl (by show ¬(0 % 4 = 3); decide)]
    dsimp only
    exact Cases.acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    by_cases h0 : (n + 1) % 4 = 0
    · have h1 : ¬(n + 1) % 4 = 3 := by omega
      rw [outsAt0_A m c ⟨n + 1, h⟩ h0 h1, acc_succ, if_pos h0]
      dsimp only
      exact Cases.acc_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)
    · by_cases h1 : (n + 1) % 4 = 3
      · rw [outsAt0_C m c ⟨n + 1, h⟩ h0 h1, acc_succ, if_neg h0]
        dsimp only
        refine (Cases.acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
        rw [scratch_eq c n]
      · rw [outsAt0_B m c ⟨n + 1, h⟩ h0 h1, acc_succ, if_neg h0]
        dsimp only
        refine (Cases.acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
        rw [scratch_eq c n]

/-- At the last point of a reduction run the output block is the accumulator plus the bias block. -/
theorem out_eq (c : Dev nD) (t : Fin cfg0.N) (h0 : ¬t.val % 4 = 0) (h1 : t.val % 4 = 3) :
    (outsAt0 m c t.val t.isLt).1 = k0_pay3 (acc m c t.val t.isLt) (bblk m c t) := by
  rw [← scratch_eq m c t.val t.isLt, outsAt0_C m c t h0 h1]
  dsimp only
  refine (Cases.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2).trans ?_
  refine congrArg (fun a => k0_pay3 a (iblk m c 3 t)) ?_
  exact (Cases.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2).symm

end Cert.KernelIdeal.Fold

end
-- ==== Proof.EntryValues.lean ====
/-
  The three stored values of the kernel body, read at one entry over the extended reals.

  The body keeps a 1024 x 512 accumulator. Its first store fills the accumulator with zero; its second adds to the
  accumulator the product of a 1024 x 1024 block of the activations with the transpose of a 512 x 1024 block of the
  masked weights (weight times mask, entry by entry; the two narrowings to a 16-bit format are the identity on exact
  values); its third adds a length-512 block of the bias to every row. Entry (p, q) of the product is the sum over
  the 1024 shared positions kk of activation (p, kk) times (weight (q, kk) times mask (q, kk)): both operands are
  contracted along their second axis, so no transpose is formed.
-/
import proofs.«105646_j57690000719893_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx
open scoped BigOperators

namespace Cert.KernelIdeal.Entry

open Cert.KernelIdeal Cert.KernelIdeal.Gen

/-! ## The block product: which entries of the two operands meet -/

theorem lhs_axis0 (j : S1024x512.Idx) (r : dot_S1024x1024_S512x1024_S1024x512_1_1_0_0_n_n.contr.Idx) :
    (dot_S1024x1024_S512x1024_S1024x512_1_1_0_0_n_n.lhsIdx j r 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_axis1 (j : S1024x512.Idx) (r : dot_S1024x1024_S512x1024_S1024x512_1_1_0_0_n_n.contr.Idx) :
    (dot_S1024x1024_S512x1024_S1024x512_1_1_0_0_n_n.lhsIdx j r 1).val = (r ⟨0, by decide⟩).val :=
  dot_S1024x1024_S512x1024_S1024x512_1_1_0_0_n_n.lhsIdx_val_of_single rfl j r
theorem rhs_axis0 (j : S1024x512.Idx) (r : dot_S1024x1024_S512x1024_S1024x512_1_1_0_0_n_n.contr.Idx) :
    (dot_S1024x1024_S512x1024_S1024x512_1_1_0_0_n_n.rhsIdx j r 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_axis1 (j : S1024x512.Idx) (r : dot_S1024x1024_S512x1024_S1024x512_1_1_0_0_n_n.contr.Idx) :
    (dot_S1024x1024_S512x1024_S1024x512_1_1_0_0_n_n.rhsIdx j r 1).val = (r ⟨0, by decide⟩).val :=
  dot_S1024x1024_S512x1024_S1024x512_1_1_0_0_n_n.rhsIdx_val_of_single rfl j r

/-- Entry (p, q) of the block product into a zero accumulator: row p of the left block against row q of the right
    block. -/
theorem blockProduct_at (x : FVec Ideal S1024x1024 .bf16) (w : FVec Ideal S512x1024 .bf16) (p : Fin 1024) (q : Fin 512) :
    matmul dot_S1024x1024_S512x1024_S1024x512_1_1_0_0_n_n none x w (constant S1024x512 .f32 0x00000000#32) (ix2 p q)
      = ∑ kk : Fin 1024, x (ix2 p kk) * w (ix2 q kk) := by
  show FloatOps.matmul dot_S1024x1024_S512x1024_S1024x512_1_1_0_0_n_n none x w (constant S1024x512 .f32 0x00000000#32) (ix2 p q) = _
  rw [Ideal.matmul_constant_zero_apply, ← Equiv.sum_comp (contrEquiv1 dot_S1024x1024_S512x1024_S1024x512_1_1_0_0_n_n 1024 rfl rfl).symm]
  refine Finset.sum_congr rfl fun kk _ => ?_
  have hk := contrEquiv1_symm_val dot_S1024x1024_S512x1024_S1024x512_1_1_0_0_n_n 1024 rfl rfl kk
  have el : dot_S1024x1024_S512x1024_S1024x512_1_1_0_0_n_n.lhsIdx (ix2 p q) ((contrEquiv1 dot_S1024x1024_S512x1024_S1024x512_1_1_0_0_n_n 1024 rfl rfl).symm kk) = ix2 p kk := funext fun a => Fin.ext (by
    match a with
    | ⟨0, _⟩ => exact lhs_axis0 _ _
    | ⟨1, _⟩ => exact (lhs_axis1 _ _).trans hk)
  have er : dot_S1024x1024_S512x1024_S1024x512_1_1_0_0_n_n.rhsIdx (ix2 p q) ((contrEquiv1 dot_S1024x1024_S512x1024_S1024x512_1_1_0_0_n_n 1024 rfl rfl).symm kk) = ix2 q kk := funext fun a => Fin.ext (by
    match a with
    | ⟨0, _⟩ => exact rhs_axis0 _ _
    | ⟨1, _⟩ => exact (rhs_axis1 _ _).trans hk)
  rw [el, er]

/-! ## The three stored values at an entry -/

/-- The reset stores zero everywhere. -/
theorem reset_at (p : Fin 1024) (q : Fin 512) : k0_pay1 (F := Ideal) (ix2 p q) = 0 := by
  unfold k0_pay1
  (try dsimp only)
  rw [shapeCast_self]
  exact Ideal.ofBits_zero_f32

/-- The accumulation stores, at (p, q), the old accumulator entry plus row p of the activation block against row q
    of the masked weight block. -/
theorem accumulate_at (x : Vec Ideal S1024x1024 .f32) (w mk : Vec Ideal S512x1024 .f32) (a : Vec Ideal S1024x512 .f32)
    (p : Fin 1024) (q : Fin 512) :
    k0_pay2 (F := Ideal) x w mk a (ix2 p q)
      = a (ix2 p q) + ∑ kk : Fin 1024, x (ix2 p kk) * (w (ix2 q kk) * mk (ix2 q kk)) := by
  unfold k0_pay2
  (try dsimp only)
  rw [shapeCast_self, shapeCast_self, addf_apply, blockProduct_at]
  rfl

/-- The last store adds bias entry q to accumulator entry (p, q): the bias block is laid out as one row and that
    row repeated down the 1024 rows. -/
theorem addBias_at (a : Vec Ideal S1024x512 .f32) (b : Vec Ideal S512 .f32) (p : Fin 1024) (q : Fin 512) :
    k0_pay3 (F := Ideal) a b (ix2 p q) = a (ix2 p q) + b (ix1 q) := by
  unfold k0_pay3
  (try dsimp only)
  rw [addf_apply]
  refine congrArg (a (ix2 p q) + ·) ?_
  rw [broadcastTo_apply _ broadcasts_S1x512_S1024x512 (ix2 p q) (ix2 (0 : Fin 1) q) (fun ax => match ax with
    | ⟨0, _⟩ => by show 0 = if (1 : Nat) = 1 then 0 else _; rw [if_pos rfl]
    | ⟨1, _⟩ => by show q.val = if (512 : Nat) = 1 then 0 else _; rw [if_neg (by decide)]; rfl)]
  exact shapeCast_apply b shapeCasts_S512_S1x512 (ix2 (0 : Fin 1) q) (ix1 q) (by
    rw [Shape.rowMajor_val_one, Shape.rowMajor_val_two]
    show q.val = 0 * 512 + q.val
    omega)

end Cert.KernelIdeal.Entry

end
-- ==== Proof.LibBlockedSum.lean ====
/-
  A finite sum over `Fin N` taken in consecutive blocks: when `N = nb * K`, the sum of `f` over all `N` indices is
  the sum over the `nb` blocks of the sum over the `K` positions inside a block, position `kk` of block `b` being
  index `b * K + kk`. It holds in any commutative additive monoid, so in particular on the extended reals, where a
  sum may be regrouped freely although it may not be distributed over. The four-block instance is spelt out as a
  left-nested chain starting from zero, the order in which an accumulator that is reset and then added to block by
  block builds the same total.
-/
import Mathlib.Algebra.BigOperators.Fin
import Mathlib.Logic.Equiv.Fin.Basic

open scoped BigOperators

namespace BlockedSum

/-- Position `kk` of block `b` is below `nb * K`. -/
theorem blockIdx_lt {nb K : ℕ} (b : Fin nb) (kk : Fin K) : b.val * K + kk.val < nb * K :=
  calc b.val * K + kk.val < b.val * K + K := Nat.add_lt_add_left kk.isLt _
    _ = (b.val + 1) * K := (Nat.succ_mul _ _).symm
    _ ≤ nb * K := Nat.mul_le_mul_right _ b.isLt

/-- Index `b * K + kk` of `Fin N`, for `N = nb * K`. -/
def blockIdx {nb K N : ℕ} (hN : nb * K = N) (b : Fin nb) (kk : Fin K) : Fin N :=
  ⟨b.val * K + kk.val, hN ▸ blockIdx_lt b kk⟩

@[simp] theorem blockIdx_val {nb K N : ℕ} (hN : nb * K = N) (b : Fin nb) (kk : Fin K) :
    (blockIdx hN b kk).val = b.val * K + kk.val := rfl

/-- A sum over `Fin (nb * K)` is the sum over blocks of the sums inside the blocks. -/
theorem sum_blocks {M : Type*} [AddCommMonoid M] {nb K N : ℕ} (hN : nb * K = N) (f : Fin N → M) :
    ∑ i, f i = ∑ b : Fin nb, ∑ kk : Fin K, f (blockIdx hN b kk) := by
  subst hN
  rw [← Equiv.sum_comp (finProdFinEquiv (m := nb) (n := K)) f, Fintype.sum_prod_type]
  refine Finset.sum_congr rfl fun b _ => Finset.sum_congr rfl fun kk _ => congrArg f (Fin.ext ?_)
  show kk.val + K * b.val = b.val * K + kk.val
  rw [Nat.mul_comm, Nat.add_comm]

/-- Four blocks, as the chain `(((0 + s₀) + s₁) + s₂) + s₃` an accumulator builds. -/
theorem sum_four_blocks_chain {M : Type*} [AddCommMonoid M] {K N : ℕ} (hN : 4 * K = N) (f : Fin N → M) :
    ∑ i, f i = (((0 + ∑ kk : Fin K, f (blockIdx hN 0 kk)) + ∑ kk : Fin K, f (blockIdx hN 1 kk))
      + ∑ kk : Fin K, f (blockIdx hN 2 kk)) + ∑ kk : Fin K, f (blockIdx hN 3 kk) := by
  rw [sum_blocks hN f, Fin.sum_univ_four, zero_add]

end BlockedSum
-- ==== Proof.ArrayValue.lean ====
/-
  The output array of the pallas call, entry by entry, over the extended reals.

  With X the 8192 x 4096 activations (the input reshaped), W the 4096 x 4096 weights, M the mask and b the bias,
  entry (r, n) of the result is  (sum over k < 4096 of X(r,k) * (W(n,k) * M(n,k))) + b(n).
  Point t of the 8 x 8 x 4 grid has coordinates i = t / 32, j = t / 4 mod 8, k = t mod 4; it reads rows
  1024 i .. 1024 i + 1023 and columns 1024 k .. 1024 k + 1023 of X, rows 512 j .. and the same columns of W and M,
  entries 512 j .. of b, and (at k = 3) writes rows 1024 i .. and columns 512 j .. of the result. Over the four points
  of one reduction run the accumulator entry (p, q) is (((0 + s0) + s1) + s2) + s3, s_k the sum over the k-th
  quarter of the 4096 shared positions: regrouped, the whole sum. Addition on the extended reals is commutative and
  associative, so no finiteness is used.
-/
import proofs.«105646_j57690000719893_1_alg».proof.Proof.Fold
import proofs.«105646_j57690000719893_1_alg».proof.Proof.EntryValues
import proofs.«105646_j57690000719893_1_alg».proof.Proof.LibBlockedSum

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen Cert.KernelIdeal.Fold Cert.KernelIdeal.Entry BlockedSum

variable (m : (ℓ : Loc nD τ sig) → Buf (Elt Ideal) ℓ)

/-- One term of the contraction: position `k` of row `r` of the activations against row `n` of the masked weights. -/
def term (X : S8192x4096.Idx → EReal) (W M : S4096x4096.Idx → EReal) (r : Fin 8192) (n : Fin 4096) (k : Fin 4096) : EReal :=
  X (ix2 r k) * (W (ix2 n k) * M (ix2 n k))

/-- The masked linear layer on the flattened rows: entry (r, n). -/
def maskedLinear (X : S8192x4096.Idx → EReal) (W M : S4096x4096.Idx → EReal) (b : S4096.Idx → EReal) : S8192x4096.Idx → EReal :=
  fun j => (∑ k : Fin 4096, term X W M (j 0) (j 1) k) + b (ix1 (j 1))

theorem hN : cfg0.N = 256 := N_0

/-- The block index maps in closed form, decided over the grid. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 1) = t.val / 4 % 8
    ∧ win0_4.index t (0 : Fin 2) = t.val / 32 ∧ win0_4.index t (1 : Fin 2) = t.val / 4 % 8 :=
  (by decide +kernel : ∀ t : Fin grid0.N, _)

/-! ## Each window's block, read against its array -/

theorem xblk_at (c : Dev nD) (u : Fin cfg0.N) (p kk : Fin 1024) (r : Fin 8192) (k : Fin 4096)
    (hr : r.val = u.val / 32 * 1024 + p.val) (hk : k.val = u.val % 4 * 1024 + kk.val) :
    xblk m c u (ix2 p kk) = V m c main_v0 (ix2 r k) := by
  obtain ⟨e0, e1, -⟩ := idx_facts u
  unfold xblk iblk
  rw [View.read_apply]
  show V m c main_v0 _ = V m c main_v0 _
  refine congrArg (V m c main_v0) (funext fun a => Fin.ext ?_)
  match a with
  | ⟨0, _⟩ => show win0_0.index u (0 : Fin 2) * 1024 + 1 * p.val = r.val; omega
  | ⟨1, _⟩ => show win0_0.index u (1 : Fin 2) * 1024 + 1 * kk.val = k.val; omega

theorem wblk_at (c : Dev nD) (u : Fin cfg0.N) (q : Fin 512) (kk : Fin 1024) (n : Fin 4096) (k : Fin 4096)
    (hn : n.val = u.val / 4 % 8 * 512 + q.val) (hk : k.val = u.val % 4 * 1024 + kk.val) :
    wblk m c u (ix2 q kk) = V m c main_arg1 (ix2 n k) := by
  obtain ⟨-, -, e0, e1, -⟩ := idx_facts u
  unfold wblk iblk
  rw [View.read_apply]
  show V m c main_arg1 _ = V m c main_arg1 _
  refine congrArg (V m c main_arg1) (funext fun a => Fin.ext ?_)
  match a with
  | ⟨0, _⟩ => show win0_1.index u (0 : Fin 2) * 512 + 1 * q.val = n.val; omega
  | ⟨1, _⟩ => show win0_1.index u (1 : Fin 2) * 1024 + 1 * kk.val = k.val; omega

theorem kblk_at (c : Dev nD) (u : Fin cfg0.N) (q : Fin 512) (kk : Fin 1024) (n : Fin 4096) (k : Fin 4096)
    (hn : n.val = u.val / 4 % 8 * 512 + q.val) (hk : k.val = u.val % 4 * 1024 + kk.val) :
    kblk m c u (ix2 q kk) = V m c main_arg3 (ix2 n k) := by
  obtain ⟨-, -, -, -, e0, e1, -⟩ := idx_facts u
  unfold kblk iblk
  rw [View.read_apply]
  show V m c main_arg3 _ = V m c main_arg3 _
  refine congrArg (V m c main_arg3) (funext fun a => Fin.ext ?_)
  match a with
  | ⟨0, _⟩ => show win0_2.index u (0 : Fin 2) * 512 + 1 * q.val = n.val; omega
  | ⟨1, _⟩ => show win0_2.index u (1 : Fin 2) * 1024 + 1 * kk.val = k.val; omega

theorem bblk_at (c : Dev nD) (u : Fin cfg0.N) (q : Fin 512) (n : Fin 4096)
    (hn : n.val = u.val / 4 % 8 * 512 + q.val) :
    bblk m c u (ix1 q) = V m c main_arg2 (ix1 n) := by
  obtain ⟨-, -, -, -, -, -, e0, -⟩ := idx_facts u
  unfold bblk iblk
  rw [View.read_apply]
  show V m c main_arg2 _ = V m c main_arg2 _
  refine congrArg (V m c main_arg2) (funext fun a => Fin.ext ?_)
  match a with
  | ⟨0, _⟩ => show win0_3.index u (0 : Fin 1) * 512 + 1 * q.val = n.val; omega

/-! ## One point's contribution, and the four of a reduction run -/

/-- The block product a point adds at entry (p, q) is one quarter of the contraction of row r against row n. -/
theorem quarter_eq (c : Dev nD) (u : Fin cfg0.N) (p : Fin 1024) (q : Fin 512) (r : Fin 8192) (n : Fin 4096) (kb : Fin 4)
    (hr : r.val = u.val / 32 * 1024 + p.val) (hn : n.val = u.val / 4 % 8 * 512 + q.val) (hkb : u.val % 4 = kb.val) :
    ∑ kk : Fin 1024, xblk m c u (ix2 p kk) * (wblk m c u (ix2 q kk) * kblk m c u (ix2 q kk))
      = ∑ kk : Fin 1024, term (V m c main_v0) (V m c main_arg1) (V m c main_arg3) r n (blockIdx (by norm_num : 4 * 1024 = 4096) kb kk) := by
  refine Finset.sum_congr rfl fun kk _ => ?_
  have hk : (blockIdx (by norm_num : 4 * 1024 = 4096) kb kk).val = u.val % 4 * 1024 + kk.val := by rw [blockIdx_val, hkb]
  rw [xblk_at m c u p kk r _ hr hk, wblk_at m c u q kk n _ hn hk, kblk_at m c u q kk n _ hn hk]
  rfl

theorem acc_restart_at (c : Dev nD) (n : ℕ) (h : n < cfg0.N) (h0 : n % 4 = 0) (p : Fin 1024) (q : Fin 512) :
    acc m c n h (ix2 p q) = 0 + ∑ kk : Fin 1024, xblk m c ⟨n, h⟩ (ix2 p kk) * (wblk m c ⟨n, h⟩ (ix2 q kk) * kblk m c ⟨n, h⟩ (ix2 q kk)) := by
  rw [acc_restart m c n h h0, accumulate_at (xblk m c ⟨n, h⟩) (wblk m c ⟨n, h⟩) (kblk m c ⟨n, h⟩) (k0_pay1 (F := Ideal)) p q, reset_at]

theorem acc_continue_at (c : Dev nD) (n : ℕ) (h : n + 1 < cfg0.N) (h0 : ¬(n + 1) % 4 = 0) (p : Fin 1024) (q : Fin 512) :
    acc m c (n + 1) h (ix2 p q) = acc m c n (Nat.lt_of_succ_lt h) (ix2 p q)
      + ∑ kk : Fin 1024, xblk m c ⟨n + 1, h⟩ (ix2 p kk) * (wblk m c ⟨n + 1, h⟩ (ix2 q kk) * kblk m c ⟨n + 1, h⟩ (ix2 q kk)) := by
  rw [acc_continue m c n h h0, accumulate_at (xblk m c ⟨n + 1, h⟩) (wblk m c ⟨n + 1, h⟩) (kblk m c ⟨n + 1, h⟩) (acc m c n (Nat.lt_of_succ_lt h)) p q]

/-- After the last point of a reduction run the accumulator entry is the whole contraction. -/
theorem acc_at_last (c : Dev nD) (t : Fin cfg0.N) (h3 : t.val % 4 = 3) (p : Fin 1024) (q : Fin 512) (r : Fin 8192) (n : Fin 4096)
    (hr : r.val = t.val / 32 * 1024 + p.val) (hn : n.val = t.val / 4 % 8 * 512 + q.val) :
    acc m c t.val t.isLt (ix2 p q) = ∑ k : Fin 4096, term (V m c main_v0) (V m c main_arg1) (V m c main_arg3) r n k := by
  obtain ⟨tv, ht⟩ := t
  have h3' : tv % 4 = 3 := h3
  have hr' : r.val = tv / 32 * 1024 + p.val := hr
  have hn' : n.val = tv / 4 % 8 * 512 + q.val := hn
  obtain ⟨n0, rfl⟩ : ∃ n0, tv = n0 + 3 := ⟨tv - 3, by omega⟩
  have hlt : n0 + 3 < 256 := lt_of_lt_of_eq ht hN
  show acc m c (n0 + 2 + 1) ht (ix2 p q) = _
  rw [acc_continue_at m c (n0 + 2) ht (by omega) p q]
  rw [show acc m c (n0 + 2) (Nat.lt_of_succ_lt ht) (ix2 p q) = acc m c (n0 + 1 + 1) (Nat.lt_of_succ_lt ht) (ix2 p q) from rfl,
    acc_continue_at m c (n0 + 1) (Nat.lt_of_succ_lt ht) (by omega) p q,
    acc_continue_at m c n0 (Nat.lt_of_succ_lt (Nat.lt_of_succ_lt ht)) (by omega) p q,
    acc_restart_at m c n0 (Nat.lt_of_succ_lt (Nat.lt_of_succ_lt (Nat.lt_of_succ_lt ht))) (by omega) p q]
  rw [quarter_eq m c ⟨n0, _⟩ p q r n 0 (by show r.val = n0 / 32 * 1024 + p.val; omega) (by show n.val = n0 / 4 % 8 * 512 + q.val; omega) (by show n0 % 4 = 0; omega),
    quarter_eq m c ⟨n0 + 1, _⟩ p q r n 1 (by show r.val = (n0 + 1) / 32 * 1024 + p.val; omega) (by show n.val = (n0 + 1) / 4 % 8 * 512 + q.val; omega) (by show (n0 + 1) % 4 = 1; omega),
    quarter_eq m c ⟨n0 + 1 + 1, _⟩ p q r n 2 (by show r.val = (n0 + 1 + 1) / 32 * 1024 + p.val; omega) (by show n.val = (n0 + 1 + 1) / 4 % 8 * 512 + q.val; omega) (by show (n0 + 1 + 1) % 4 = 2; omega),
    quarter_eq m c ⟨n0 + 2 + 1, _⟩ p q r n 3 (by show r.val = (n0 + 2 + 1) / 32 * 1024 + p.val; omega) (by show n.val = (n0 + 2 + 1) / 4 % 8 * 512 + q.val; omega) (by show (n0 + 2 + 1) % 4 = 3; omega)]
  exact (sum_four_blocks_chain (by norm_num : 4 * 1024 = 4096) _).symm

/-! ## What a write-back point writes, the cover, and the array after the region -/

/-- The row of the result that row `p` of point `t`'s output block is, and likewise the column. -/
def rowOf (t : Fin cfg0.N) (p : Fin 1024) : Fin 8192 :=
  ⟨t.val / 32 * 1024 + p.val, by have := lt_of_lt_of_eq t.isLt hN; have := p.isLt; omega⟩
def colOf (t : Fin cfg0.N) (q : Fin 512) : Fin 4096 :=
  ⟨t.val / 4 % 8 * 512 + q.val, by have := q.isLt; omega⟩

/-- The region's result as a function of the arrays the region finds. -/
abbrev result (c : Dev nD) : S8192x4096.Idx → EReal :=
  maskedLinear (V m c main_v0) (V m c main_arg1) (V m c main_arg3) (V m c main_arg2)

theorem out_fn (c : Dev nD) (t : Fin cfg0.N) (h3 : t.val % 4 = 3) :
    (outsAt0 m c t.val t.isLt).1 = fun y : S1024x512.Idx => result m c (ix2 (rowOf t ⟨(y 0).val, idx2_lt0 y⟩) (colOf t ⟨(y 1).val, idx2_lt1 y⟩)) := by
  funext y
  obtain ⟨p, q, rfl⟩ : ∃ (p : Fin 1024) (q : Fin 512), y = ix2 p q := ⟨y 0, y 1, eq_ix2 y⟩
  rw [out_eq m c t (by omega) h3, addBias_at (acc m c t.val t.isLt) (bblk m c t) p q,
    acc_at_last m c t h3 p q (rowOf t p) (colOf t q) rfl rfl, bblk_at m c t q (colOf t q) rfl]
  rfl

theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  obtain ⟨-, -, -, -, -, -, -, e0, e1⟩ := idx_facts t
  show (cfg0.win 4).cut (grid0.coords t) ((dats m 0 c).after 4 t) = _
  rw [after0_4, out_fn m c t h3]
  funext y
  rw [View.read_apply]
  show result m c _ = result m c _
  refine congrArg (result m c) (funext fun a => Fin.ext ?_)
  match a with
  | ⟨0, _⟩ => show t.val / 32 * 1024 + (y 0).val = win0_4.index t (0 : Fin 2) * 1024 + 1 * (y 0).val; omega
  | ⟨1, _⟩ => show t.val / 4 % 8 * 512 + (y 1).val = win0_4.index t (1 : Fin 2) * 512 + 1 * (y 1).val; omega

theorem mem_blk (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- Every entry of the result lies in the output block of the last point of its reduction run. -/
theorem cover (i : S8192x4096.Idx) : ∃ t : Fin cfg0.N, (cfg0.win 4).flush t = true ∧ i ∈ ((cfg0.win 4).blk t).view.set := by
  have hi0 : (i 0).val < 8192 := idx2_lt0 i
  have hi1 : (i 1).val < 4096 := idx2_lt1 i
  let t : Fin cfg0.N := ⟨(i 0).val / 1024 * 32 + (i 1).val / 512 * 4 + 3, by rw [hN]; omega⟩
  have htv : t.val = (i 0).val / 1024 * 32 + (i 1).val / 512 * 4 + 3 := rfl
  obtain ⟨-, -, -, -, -, -, -, e0, e1⟩ := idx_facts t
  refine ⟨t, (flush0_4 t).mpr (by omega), ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the region. -/
theorem final (c : Dev nD) : (dats m 0 c).arrAt 4 cfg0.N = result m c :=
  (dats m 0 c).arrAt_eq_of_cover 4 (result m c) (fun t hf => flushed_eq m c t hf) cover

end Cert.KernelIdeal.Result

end
-- ==== Proof.WholeProgram.lean ====
/-
  The whole program at the ideal instance: its result as one function of its four arguments.

  Before the pallas call the activations [4, 2048, 4096] are flattened to 8192 rows; after it the [8192, 4096] result
  is folded back to [4, 2048, 4096]. Both are reshapes, which keep the row-major position of every entry. So the
  program's value at (b, s, o) is the masked linear layer's entry (2048 b + s, o) of the flattened activations.
-/
import proofs.«105646_j57690000719893_1_alg».proof.Proof.ArrayValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Result

variable (m : (ℓ : Loc nD τ sig) → Buf (Elt Ideal) ℓ) (ρ : Dev nD → PrngReg)

/-- The program's value: flatten the activations, apply the masked linear layer, fold the rows back. -/
def value (x : S4x2048x4096.Idx → EReal) (W : S4096x4096.Idx → EReal) (b : S4096.Idx → EReal) (M : S4096x4096.Idx → EReal) :
    S4x2048x4096.Idx → EReal :=
  shapeCast S4x2048x4096 (maskedLinear (shapeCast S8192x4096 x shapeCasts_S4x2048x4096_S8192x4096) W M b) shapeCasts_S8192x4096_S4x2048x4096

/-- The activations as the region finds them are the first argument flattened to rows. -/
theorem entry_rows (c : Dev nD) :
    (V m c main_v0 : S8192x4096.Idx → EReal) = shapeCast S8192x4096 (m ((c.tc : Thread nD τ).loc main_arg0)) shapeCasts_S4x2048x4096_S8192x4096 := by
  show StableHlo.after hostOps0 (fun b => m (c, b)) (Proc.devRef .tc main_v0) = _
  after_results
  rfl

/-- The region's result in terms of the program's arguments. -/
theorem result_eq (c : Dev nD) :
    result m c = maskedLinear (shapeCast S8192x4096 (m ((c.tc : Thread nD τ).loc main_arg0)) shapeCasts_S4x2048x4096_S8192x4096)
      (m ((c.tc : Thread nD τ).loc main_arg1)) (m ((c.tc : Thread nD τ).loc main_arg3)) (m ((c.tc : Thread nD τ).loc main_arg2)) := by
  show maskedLinear (V m c main_v0) (V m c main_arg1) (V m c main_arg3) (V m c main_arg2) = _
  rw [entry_rows m c, V_main_arg1 m c, V_main_arg2 m c, V_main_arg3 m c]

/-- The reshape after the region reads the region's result array. -/
theorem tail_eq (c : Dev nD) :
    Pipeline.afterTail₀ cfgs (dats m) 0 (V0 m) [hostOps1] c main_v2
      = value (m ((c.tc : Thread nD τ).loc main_arg0)) (m ((c.tc : Thread nD τ).loc main_arg1)) (m ((c.tc : Thread nD τ).loc main_arg2)) (m ((c.tc : Thread nD τ).loc main_arg3)) := by
  have hw : Pipeline.withArrays (cfgs 0).spec c (V0 m c) (fun w => (dats m 0 c).arrAt w (cfgs 0).N) (Proc.devRef .tc main_v1) = result m c :=
    (Pipeline.withArrays_arr spec0 launch0.win.arr_inj c _ _ 4).trans (final m c)
  unfold Pipeline.afterTail₀
  show StableHlo.after hostOps1 _ (Proc.devRef .tc main_v2) = _
  after_results
  rw [hw, result_eq m c]
  rfl

/-- The run, read: the result buffer at the program's value of the arguments, the arguments unchanged. -/
theorem run : θ_run defs (onTc (τ := τ) (main (F := Ideal))) ⟨m, fun _ => 0, ρ⟩ fun r => ∀ c : Dev nD,
      r.2.mem ((c.tc : Thread nD τ).loc main_v2) = value (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c)))⟩)
    (run_main m ρ)

end Cert.KernelIdeal.Whole

end
-- ==== Proof.ReferenceBridge.lean ====
/-
  The reference computes the same function.

  The reference multiplies weight by mask entry by entry, contracts the last axis of the [4, 2048, 4096] activations
  against the last axis of that product, and adds the bias broadcast over the first two axes: at (b, s, o) it is
  (sum over k < 4096 of x(b,s,k) * (W(o,k) * M(o,k))) + bias(o). The kernel program's value at (b, s, o) is the masked
  linear layer's entry (2048 b + s, o) on the flattened activations, whose row 2048 b + s is x(b, s, ·): the two
  reshapes keep row-major positions. The two sides are then the same sum, term by term.
-/
import proofs.«105646_j57690000719893_1_alg».proof.Proof.WholeProgram
import proofs.«105646_j57690000719893_1_alg».proof.Proof.Gen.ReferenceIdeal.Read

noncomputable section

open Idealize.ShloMosaic Idealize.ShloMosaic.TcCoe Idealize.ShloMosaic.ValueIdx
open scoped BigOperators

namespace Cert.ReferenceIdeal.Bridge

open Cert.ReferenceIdeal

theorem reference_eq (x0 : S4x2048x4096.Idx → EReal) (x1 : S4096x4096.Idx → EReal) (x2 : S4096.Idx → EReal) (x3 : S4096x4096.Idx → EReal) :
    Read.val_main_v4 (F := Ideal) x0 x1 x2 x3 = Cert.KernelIdeal.Whole.value x0 x1 x2 x3 := by
  funext i
  obtain ⟨b, s, o, rfl⟩ : ∃ (b : Fin 4) (s : Fin 2048) (o : Fin 4096), i = ix3 b s o := ⟨i 0, i 1, i 2, eq_ix3 i⟩
  let r : Fin 8192 := ⟨b.val * 2048 + s.val, by have := b.isLt; have := s.isLt; omega⟩
  have el : ∀ k : Fin 4096, Read.lidx_main_v1 (ix3 b s o) k = ix3 b s k := fun k => funext fun a => by
    match a with
    | ⟨0, _⟩ => rfl
    | ⟨1, _⟩ => rfl
    | ⟨2, _⟩ => rfl
  have er : ∀ k : Fin 4096, Read.ridx_main_v1 (ix3 b s o) k = ix2 o k := fun k => funext fun a => by
    match a with
    | ⟨0, _⟩ => rfl
    | ⟨1, _⟩ => rfl
  have eb : Read.idx_main_v2 (Read.idx_main_v3 (ix3 b s o)) = ix1 o := funext fun a => by
    match a with
    | ⟨0, _⟩ => rfl
  have ex : ∀ k : Fin 4096, shapeCast Cert.KernelIdeal.S8192x4096 x0 Cert.KernelIdeal.Gen.shapeCasts_S4x2048x4096_S8192x4096 (ix2 r k) = x0 (ix3 b s k) := fun k =>
    shapeCast_apply x0 Cert.KernelIdeal.Gen.shapeCasts_S4x2048x4096_S8192x4096 (ix2 r k) (ix3 b s k) (by
      rw [Shape.rowMajor_val_three, Shape.rowMajor_val_two]; rfl)
  rw [Read.val_main_v4_apply, Read.val_main_v1_apply, Read.val_main_v3_apply, Read.val_main_v2_apply, eb]
  unfold Cert.KernelIdeal.Whole.value
  rw [shapeCast_apply _ Cert.KernelIdeal.Gen.shapeCasts_S8192x4096_S4x2048x4096 (ix3 b s o) (ix2 r o) (by
    rw [Shape.rowMajor_val_three, Shape.rowMajor_val_two]; rfl)]
  show (∑ k : Fin 4096, x0 (Read.lidx_main_v1 (ix3 b s o) k) * Read.val_main_v0 (F := Ideal) x1 x3 (Read.ridx_main_v1 (ix3 b s o) k)) + x2 (ix1 o)
    = (∑ k : Fin 4096, shapeCast Cert.KernelIdeal.S8192x4096 x0 Cert.KernelIdeal.Gen.shapeCasts_S4x2048x4096_S8192x4096 (ix2 r k) * (x1 (ix2 o k) * x3 (ix2 o k))) + x2 (ix1 o)
  refine congrArg (· + x2 (ix1 o)) (Finset.sum_congr rfl fun k _ => ?_)
  rw [el k, er k, ex k]
  rfl

end Cert.ReferenceIdeal.Bridge

end
-- ==== Proof.lean ====
/-
  A masked linear layer, y = x · (weight ∘ mask)ᵀ + bias, computed by a tiled kernel and by a plain reference.

  The kernel flattens x [4, 2048, 4096] to 8192 rows and runs an 8 x 8 x 4 grid. Point (i, j, k) multiplies a
  1024 x 1024 block of the rows by a 512 x 1024 block of weight times mask (both contracted along their last axis)
  and adds the product to a 1024 x 512 accumulator that is zeroed at k = 0; at k = 3 the accumulator plus a bias block
  becomes block (i, j) of the result, which is then folded back to [4, 2048, 4096]. The reference forms weight times
  mask, contracts all 4096 positions at once and adds the bias.

  Over the extended reals the two agree entry by entry: the kernel's entry is (((0 + s0) + s1) + s2) + s3 + bias,
  s_k the sum over the k-th quarter of the 4096 positions, and the reference's is the whole sum plus bias; addition
  there is commutative and associative, so regrouping needs no finiteness and the precondition is never opened. The
  narrowings to a 16-bit format are the identity on exact values. The idealization rewrote nothing, so the
  preservation claim is trivially true. The word-level and idealized kernels terminate without fault with their
  arguments unchanged by their frame theorems; the reference by its run.
-/
import proofs.«105646_j57690000719893_1_alg».proof.Defs
import proofs.«105646_j57690000719893_1_alg».proof.Proof.Gen.Kernel
import proofs.«105646_j57690000719893_1_alg».proof.Proof.Gen.Kernel.Skeleton
import proofs.«105646_j57690000719893_1_alg».proof.Proof.Gen.Kernel.Launch
import proofs.«105646_j57690000719893_1_alg».proof.Proof.Gen.Kernel.Points
import proofs.«105646_j57690000719893_1_alg».proof.Proof.Gen.Kernel.Frame
import proofs.«105646_j57690000719893_1_alg».proof.Proof.Gen.KernelIdeal
import proofs.«105646_j57690000719893_1_alg».proof.Proof.Gen.KernelIdeal.Skeleton
import proofs.«105646_j57690000719893_1_alg».proof.Proof.Gen.KernelIdeal.Launch
import proofs.«105646_j57690000719893_1_alg».proof.Proof.Gen.KernelIdeal.Points
import proofs.«105646_j57690000719893_1_alg».proof.Proof.Gen.KernelIdeal.Frame
import proofs.«105646_j57690000719893_1_alg».proof.Proof.Gen.ReferenceIdeal
import proofs.«105646_j57690000719893_1_alg».proof.Proof.Gen.Pre_finite_inputs
import proofs.«105646_j57690000719893_1_alg».proof.Proof.Gen.ReferenceIdeal.Run
import proofs.«105646_j57690000719893_1_alg».proof.Proof.Gen.ReferenceIdeal.Read
import proofs.«105646_j57690000719893_1_alg».proof.Proof.WholeProgram
import proofs.«105646_j57690000719893_1_alg».proof.Proof.ReferenceBridge
import Idealize.ShloMosaic.Adequacy
import Idealize.ShloMosaic.Init

noncomputable section

namespace Cert.Proof

open Idealize.ShloMosaic Idealize.SL.Sem Cert.Kernel

/-- Both idealized programs, from memories that agree on the four arguments, end with the same result: the kernel
    program at its value of the arguments, the reference at its own term, which is that value. -/
theorem algebraic : Cert.algebraic_KernelIdeal_ReferenceIdeal := by
  intro m ρ m' ρ' _ hagree
  refine ⟨fun c => Cert.KernelIdeal.Whole.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.Bridge.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
